-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x8192 : Shape := ⟨2, ![16384, 8192]⟩
abbrev S16384x5 : Shape := ⟨2, ![16384, 5]⟩
abbrev S8192x5 : Shape := ⟨2, ![8192, 5]⟩
abbrev S_ : Shape := ⟨0, ![]⟩

class Facts : Prop where
  bcast_S_S16384x8192 : S_.BroadcastsInDim S16384x8192 (![] : Fin 0 → Fin S16384x8192.rank)
  reducesTo_S16384x8192_S_d0_1 : S16384x8192.ReducesTo [0, 1] S_
  h_S_ : 0 < S_.numel
  bcast_S_S16384x5 : S_.BroadcastsInDim S16384x5 (![] : Fin 0 → Fin S16384x5.rank)
  reducesTo_S16384x5_S_d0_1 : S16384x5.ReducesTo [0, 1] S_
  bcast_S_S8192x5 : S_.BroadcastsInDim S8192x5 (![] : Fin 0 → Fin S8192x5.rank)
  reducesTo_S8192x5_S_d0_1 : S8192x5.ReducesTo [0, 1] S_

variable [Facts]

def fn {F : FTy → Type} [FloatOps F] (main_arg0 : FVec F S16384x8192 .f32) (main_arg1 : FVec F S16384x5 .f32) (main_arg2 : FVec F S8192x5 .f32) : IVec S_ 1 :=
  let main_v0 : FVec F S16384x8192 .f32 := Host.absf main_arg0
  let main_cst : FVec F S_ .f32 := constant S_ .f32 0x7F800000#32
  let main_v1 : FVec F S16384x8192 .f32 := broadcastInDim S16384x8192 ![] bcast_S_S16384x8192 main_cst
  let main_v2 : IVec S16384x8192 1 := cmpf .olt main_v0 main_v1
  let main_c : IVec S_ 1 := constantI S_ 1 1#1
  let main_v3 : IVec S_ 1 := (fun x v => Host.reduce IntOp.andi x v reducesTo_S16384x8192_S_d0_1 h_S_) main_v2 main_c
  let main_v4 : FVec F S16384x5 .f32 := Host.absf main_arg1
  let main_cst_0 : FVec F S_ .f32 := constant S_ .f32 0x7F800000#32
  let main_v5 : FVec F S16384x5 .f32 := broadcastInDim S16384x5 ![] bcast_S_S16384x5 main_cst_0
  let main_v6 : IVec S16384x5 1 := cmpf .olt main_v4 main_v5
  let main_c_1 : IVec S_ 1 := constantI S_ 1 1#1
  let main_v7 : IVec S_ 1 := (fun x v => Host.reduce IntOp.andi x v reducesTo_S16384x5_S_d0_1 h_S_) main_v6 main_c_1
  let main_v8 : IVec S_ 1 := andi main_v3 main_v7
  let main_v9 : FVec F S8192x5 .f32 := Host.absf main_arg2
  let main_cst_2 : FVec F S_ .f32 := constant S_ .f32 0x7F800000#32
  let main_v10 : FVec F S8192x5 .f32 := broadcastInDim S8192x5 ![] bcast_S_S8192x5 main_cst_2
  let main_v11 : IVec S8192x5 1 := cmpf .olt main_v9 main_v10
  let main_c_3 : IVec S_ 1 := constantI S_ 1 1#1
  let main_v12 : IVec S_ 1 := (fun x v => Host.reduce IntOp.andi x v reducesTo_S8192x5_S_d0_1 h_S_) main_v11 main_c_3
  let main_v13 : IVec S_ 1 := andi main_v8 main_v12
  main_v13
-- ==== Kernel.lean ====
abbrev S16384x8192 : Shape := ⟨2, ![16384, 8192]⟩
abbrev S16384x5 : Shape := ⟨2, ![16384, 5]⟩
abbrev S8192x5 : Shape := ⟨2, ![8192, 5]⟩
abbrev S32x8x128 : Shape := ⟨3, ![32, 8, 128]⟩
abbrev S512x1024 : Shape := ⟨2, ![512, 1024]⟩
abbrev S512x5 : Shape := ⟨2, ![512, 5]⟩
abbrev S1024x5 : Shape := ⟨2, ![1024, 5]⟩
abbrev S1x8x128 : Shape := ⟨3, ![1, 8, 128]⟩
abbrev S8x128 : Shape := ⟨2, ![8, 128]⟩
abbrev S1x512x1024 : Shape := ⟨3, ![1, 512, 1024]⟩
abbrev S1 : Shape := ⟨1, ![1]⟩
abbrev S1x1x1 : Shape := ⟨3, ![1, 1, 1]⟩
abbrev S_ : Shape := ⟨0, ![]⟩
abbrev S16384 : Shape := ⟨1, ![16384]⟩
abbrev S8192 : Shape := ⟨1, ![8192]⟩

abbrev nBuf : Space → Nat
  | .hbm => 24
  | .vmem => 9
  | .smem => 0
  | _ => 0

abbrev bufTy : (tb : Table) → Fin (tcTables nBuf tb) → BufTy
  | .hbm, ⟨0, _⟩ => ⟨S16384x8192, .f32⟩
  | .hbm, ⟨1, _⟩ => ⟨S16384x5, .f32⟩
  | .hbm, ⟨2, _⟩ => ⟨S8192x5, .f32⟩
  | .hbm, ⟨3, _⟩ => ⟨S32x8x128, .f32⟩
  | .hbm, ⟨4, _⟩ => ⟨S_, .f32⟩
  | .hbm, ⟨5, _⟩ => ⟨S_, .f32⟩
  | .hbm, ⟨6, _⟩ => ⟨S16384x5, .f32⟩
  | .hbm, ⟨7, _⟩ => ⟨S_, .f32⟩
  | .hbm, ⟨8, _⟩ => ⟨S16384, .f32⟩
  | .hbm, ⟨9, _⟩ => ⟨S16384, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S8192x5, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x5, .f32⟩
  | .local _ .vmem, ⟨3, _⟩ => ⟨S512x5, .f32⟩
  | .local _ .vmem, ⟨4, _⟩ => ⟨S1024x5, .f32⟩
  | .local _ .vmem, ⟨5, _⟩ => ⟨S1024x5, .f32⟩
  | .local _ .vmem, ⟨6, _⟩ => ⟨S1x8x128, .f32⟩
  | .local _ .vmem, ⟨7, _⟩ => ⟨S1x8x128, .f32⟩
  | .local _ .vmem, ⟨8, _⟩ => ⟨S8x128, .f32⟩
  | _, _ => ⟨S16384x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_cst_3 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v36 : BitVec 1 := Scalar.cmpi .eq arg1 c7_i32
  let v37 : BitVec 32 := Scalar.extui v36
  let c0_i32_15 : BitVec 32 := 0#32
  let v38 : BitVec 1 := Scalar.cmpi .ne v37 c0_i32_15
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S512x5_S512x5_0_0 : ∀ a, (![0, 0] : Fin 2 → Nat) a + S512x5.size a ≤ S512x5.size a
  h_S512x5 : 0 < S512x5.numel
  bitsLt_bf16_f32 : FTy.bits .bf16 < FTy.bits .f32
  inb_S1024x5_S1024x5_0_0 : ∀ a, (![0, 0] : Fin 2 → Nat) a + S1024x5.size a ≤ S1024x5.size a
  h_S1024x5 : 0 < S1024x5.numel
  inb_S512x1024_S512x1024_0_0 : ∀ a, (![0, 0] : Fin 2 → Nat) a + S512x1024.size a ≤ S512x1024.size a
  h_S512x1024 : 0 < S512x1024.numel
  natLt_1_32 : 1 < 32
  shapeCasts_S512x1024_S1x512x1024 : S512x1024.ShapeCasts S1x512x1024
  reduces_S1x512x1024_S1 : S1x512x1024.Reduces [1, 2] S1
  shapeCasts_S1_S1x1x1 : S1.ShapeCasts S1x1x1
  inpos_S1x1x1_p0_0_0 : ∀ a, (![0, 0, 0] : Fin 3 → Nat) a < S1x1x1.size a
  iota_S8x128_d0_w32 : S8x128.Iotas .tc 32 [0]
  iota_S8x128_d1_w32 : S8x128.Iotas .tc 32 [1]
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  reducesTo_S32x8x128_S_d0_1_2 : S32x8x128.ReducesTo [0, 1, 2] S_
  h_S_ : 0 < S_.numel
  reducesTo_S16384x5_S16384_d1 : S16384x5.ReducesTo [1] S16384
  reducesTo_S16384_S_d0 : S16384.ReducesTo [0] S_
  reducesTo_S8192x5_S8192_d1 : S8192x5.ReducesTo [1] S8192
  reducesTo_S8192_S_d0 : S8192.ReducesTo [0] S_
  dot_S512x5_S1024x5_S512x1024_1_1_0_0_n_n_wf : DotDims.WF S512x5 S1024x5 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x8192.size a
  hwx0_0 : ∀ i : grid0.Coords, EltTy.bits .f32 = 32 ∨ (Rect.block (s := S16384x8192) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x5.size a ≤ S16384x5.size a
  hwx0_1 : ∀ i : grid0.Coords, EltTy.bits .f32 = 32 ∨ (Rect.block (s := S16384x5) S512x5.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x5.size a ≤ S8192x5.size a
  hwx0_2 : ∀ i : grid0.Coords, EltTy.bits .f32 = 32 ∨ (Rect.block (s := S8192x5) S1024x5.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S32x8x128.size a
  hwx0_3 : ∀ i : grid0.Coords, EltTy.bits .f32 = 32 ∨ (Rect.block (s := S32x8x128) S1x8x128.size (cc0_transform_3 i) (hinb0_3 i)).WholeWords (EltTy.packing .f32)

variable [Facts₀]

def dot_S512x5_S1024x5_S512x1024_1_1_0_0_n_n : DotDims S512x5 S1024x5 S512x1024 where
  lhsContracting := [1]
  rhsContracting := [1]
  lhsNonContracting := [0]
  rhsNonContracting := [0]
  lhsBatch := []
  rhsBatch := []
  wf := dot_S512x5_S1024x5_S512x1024_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x5.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x8192 : Shape := ⟨2, ![16384, 8192]⟩
abbrev S16384x5 : Shape := ⟨2, ![16384, 5]⟩
abbrev S8192x5 : Shape := ⟨2, ![8192, 5]⟩
abbrev S_ : Shape := ⟨0, ![]⟩
abbrev S16384 : Shape := ⟨1, ![16384]⟩
abbrev S8192 : Shape := ⟨1, ![8192]⟩

abbrev nBuf : Space → Nat
  | .hbm => 39
  | .vmem => 0
  | .smem => 0
  | _ => 0

abbrev bufTy : (tb : Table) → Fin (tcTables nBuf tb) → BufTy
  | .hbm, ⟨0, _⟩ => ⟨S16384x8192, .f32⟩
  | .hbm, ⟨1, _⟩ => ⟨S16384x5, .f32⟩
  | .hbm, ⟨2, _⟩ => ⟨S8192x5, .f32⟩
  | .hbm, ⟨3, _⟩ => ⟨S_, .f32⟩
  | .hbm, ⟨4, _⟩ => ⟨S16384x8192, .f32⟩
  | .hbm, ⟨5, _⟩ => ⟨S16384x8192, .i1⟩
  | .hbm, ⟨6, _⟩ => ⟨S16384x8192, .f32⟩
  | .hbm, ⟨7, _⟩ => ⟨S16384x8192, .f32⟩
  | .hbm, ⟨8, _⟩ => ⟨S16384x8192, .f32⟩
  | .hbm, ⟨9, _⟩ => ⟨S16384x8192, .f32⟩
  | .hbm, ⟨10, _⟩ => ⟨S_, .f32⟩
  | .hbm, ⟨11, _⟩ => ⟨S16384x8192, .f32⟩
  | .hbm, ⟨12, _⟩ => ⟨S16384x8192, .f32⟩
  | .hbm, ⟨13, _⟩ => ⟨S_, .f32⟩
  | .hbm, ⟨14, _⟩ => ⟨S16384x8192, .f32⟩
  | .hbm, ⟨15, _⟩ => ⟨S16384x8192, .f32⟩
  | .hbm, ⟨16, _⟩ => ⟨S16384x8192, .f32⟩
  | .hbm, ⟨17, _⟩ => ⟨S16384x8192, .f32⟩
  | .hbm, ⟨18, _⟩ => ⟨S16384x8192, .f32⟩
  | .hbm, ⟨19, _⟩ => ⟨S_, .f32⟩
  | .hbm, ⟨20, _⟩ => ⟨S_, .f32⟩
  | .hbm, ⟨21, _⟩ => ⟨S16384x5, .f32⟩
  | .hbm, ⟨22, _⟩ => ⟨S_, .f32⟩
  | .hbm, ⟨23, _⟩ => ⟨S16384, .f32⟩
  | .hbm, ⟨24, _⟩ => ⟨S16384, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S8192x5, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | _, _ => ⟨S16384x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_call0_v0 : Ref sig .tc := ⟨.hbm, 21, rfl⟩
abbrev main_call0_cst : Ref sig .tc := ⟨.hbm, 22, rfl⟩
abbrev main_call0_v1 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_call1_v0 : Ref sig .tc := ⟨.hbm, 29, rfl⟩
abbrev main_call1_cst : Ref sig .tc := ⟨.hbm, 30, rfl⟩
abbrev main_call1_v1 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_cst_6 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]

class Facts₀ : Prop where
  bcast_S_S16384x8192 : S_.BroadcastsInDim S16384x8192 (![] : Fin 0 → Fin S16384x8192.rank)
  reducesTo_S16384x8192_S_d0_1 : S16384x8192.ReducesTo [0, 1] S_
  h_S_ : 0 < S_.numel
  reducesTo_S16384x5_S16384_d1 : S16384x5.ReducesTo [1] S16384
  reducesTo_S16384_S_d0 : S16384.ReducesTo [0] S_
  reducesTo_S8192x5_S8192_d1 : S8192x5.ReducesTo [1] S8192
  reducesTo_S8192_S_d0 : S8192.ReducesTo [0] S_
  dot_S16384x5_S8192x5_S16384x8192_1_1_0_0_n_n_wf : DotDims.WF S16384x5 S8192x5 S16384x8192 [1] [1] [0] [0] [] []

variable [Facts₀]

def dot_S16384x5_S8192x5_S16384x8192_1_1_0_0_n_n : DotDims S16384x5 S8192x5 S16384x8192 where
  lhsContracting := [1]
  rhsContracting := [1]
  lhsNonContracting := [0]
  rhsNonContracting := [0]
  lhsBatch := []
  rhsBatch := []
  wf := dot_S16384x5_S8192x5_S16384x8192_1_1_0_0_n_n_wf

class Facts : Prop extends Facts₀ where

variable [Facts]
-- ==== Proof.KernelPoint.lean ====
/-
  What one grid point of the kernel leaves behind, read as values (at any float instance).

  The body keeps a running [8, 128] accumulator in scratch memory. At a point it loads its three input blocks
  (a [512, 1024] block of the matrix, 512 user rows, 1024 movie rows), computes from them one number — the block's
  sum of squared masked errors — and adds it at position (0, 0) of the accumulator:
    at the first point of a row of the grid the accumulator is first reset to zero;
    at the last point of a row the updated accumulator is also copied into the output block.
  So the scratch after a point is ONE function (the generated payload `k0_pay3`) of the three blocks and of the
  scratch before (the zero block at a row's first point), and the output block at a row's last point is that,
  reshaped to [1, 8, 128] (`k0_pay1`).
-/
import proofs.«129829_j63720134803627_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Point

open Cert.KernelIdeal Cert.KernelIdeal.Gen

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

/-- A row's first point: the scratch is reset to the zero block and then updated from the three blocks. -/
theorem scratch_first (c : Dev nD) (i : grid0.Coords) (arg2 : Memref sig .tc .vmem S512x1024 .f32) (harg2 : arg2.IsWhole) (arg3 : Memref sig .tc .vmem S512x5 .f32) (harg3 : arg3.IsWhole) (arg4 : Memref sig .tc .vmem S1024x5 .f32) (harg4 : arg4.IsWhole) (arg5 : Memref sig .tc .vmem S1x8x128 .f32) (harg5 : arg5.IsWhole) (arg6 : Memref sig .tc .vmem S8x128 .f32) (harg6 : arg6.IsWhole) (hc0 : cond0_0 i) (hc1 : ¬cond0_1 i)
    (x0 : Vec F S512x1024 .f32) (x1 : Vec F S512x5 .f32) (x2 : Vec F S1024x5 .f32) :
    sout0_A_0 c i arg2 harg2 arg3 harg3 arg4 harg4 arg5 harg5 arg6 harg6 hc0 hc1 x0 x1 x2 = k0_pay3 x1 x2 x0 (k0_pay2 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S8x128) hz, View.readCov_unit_zero (S := S8x128) _ hz]
  simp only [View.readAt_eq_ld, harg2.read_unread, harg3.read_unread, harg4.read_unread, harg6.read_unread,
    View.ld_unit_zero (S := S512x5) hz, View.ld_unit_zero (S := S1024x5) hz, View.ld_unit_zero (S := S512x1024) hz,
    View.ld_unit_zero (S := S8x128) hz]

/-- A point inside a row: the scratch the point before left, updated from the three blocks. -/
theorem scratch_inner (c : Dev nD) (i : grid0.Coords) (arg2 : Memref sig .tc .vmem S512x1024 .f32) (harg2 : arg2.IsWhole) (arg3 : Memref sig .tc .vmem S512x5 .f32) (harg3 : arg3.IsWhole) (arg4 : Memref sig .tc .vmem S1024x5 .f32) (harg4 : arg4.IsWhole) (arg5 : Memref sig .tc .vmem S1x8x128 .f32) (harg5 : arg5.IsWhole) (arg6 : Memref sig .tc .vmem S8x128 .f32) (harg6 : arg6.IsWhole) (hc0 : ¬cond0_0 i) (hc1 : ¬cond0_1 i)
    (x0 : Vec F S512x1024 .f32) (x1 : Vec F S512x5 .f32) (x2 : Vec F S1024x5 .f32) (xs0 : Vec F S8x128 .f32) :
    sout0_B_0 c i arg2 harg2 arg3 harg3 arg4 harg4 arg5 harg5 arg6 harg6 hc0 hc1 x0 x1 x2 xs0 = k0_pay3 x1 x2 x0 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz]
  simp only [View.readAt_eq_ld, harg2.read_unread, harg3.read_unread, harg4.read_unread, harg6.read_unread,
    View.ld_unit_zero (S := S512x5) hz, View.ld_unit_zero (S := S1024x5) hz, View.ld_unit_zero (S := S512x1024) hz,
    View.ld_unit_zero (S := S8x128) hz]

/-- A row's last point: the same update of the scratch … -/
theorem scratch_last (c : Dev nD) (i : grid0.Coords) (arg2 : Memref sig .tc .vmem S512x1024 .f32) (harg2 : arg2.IsWhole) (arg3 : Memref sig .tc .vmem S512x5 .f32) (harg3 : arg3.IsWhole) (arg4 : Memref sig .tc .vmem S1024x5 .f32) (harg4 : arg4.IsWhole) (arg5 : Memref sig .tc .vmem S1x8x128 .f32) (harg5 : arg5.IsWhole) (arg6 : Memref sig .tc .vmem S8x128 .f32) (harg6 : arg6.IsWhole) (hc0 : ¬cond0_0 i) (hc1 : cond0_1 i)
    (x0 : Vec F S512x1024 .f32) (x1 : Vec F S512x5 .f32) (x2 : Vec F S1024x5 .f32) (xs0 : Vec F S8x128 .f32) :
    sout0_C_0 c i arg2 harg2 arg3 harg3 arg4 harg4 arg5 harg5 arg6 harg6 hc0 hc1 x0 x1 x2 xs0 = k0_pay3 x1 x2 x0 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg6.read_unread,
    View.ld_unit_zero (S := S512x5) hz, View.ld_unit_zero (S := S1024x5) hz, View.ld_unit_zero (S := S512x1024) hz,
    View.ld_unit_zero (S := S8x128) hz]

/-- … and the output block is the updated scratch, read back and reshaped to [1, 8, 128]. -/
theorem out_last (c : Dev nD) (i : grid0.Coords) (arg2 : Memref sig .tc .vmem S512x1024 .f32) (harg2 : arg2.IsWhole) (arg3 : Memref sig .tc .vmem S512x5 .f32) (harg3 : arg3.IsWhole) (arg4 : Memref sig .tc .vmem S1024x5 .f32) (harg4 : arg4.IsWhole) (arg5 : Memref sig .tc .vmem S1x8x128 .f32) (harg5 : arg5.IsWhole) (arg6 : Memref sig .tc .vmem S8x128 .f32) (harg6 : arg6.IsWhole) (hc0 : ¬cond0_0 i) (hc1 : cond0_1 i)
    (x0 : Vec F S512x1024 .f32) (x1 : Vec F S512x5 .f32) (x2 : Vec F S1024x5 .f32) (xs0 : Vec F S8x128 .f32) :
    out0_C_3 c i arg2 harg2 arg3 harg3 arg4 harg4 arg5 harg5 arg6 harg6 hc0 hc1 x0 x1 x2 xs0 = k0_pay1 (k0_pay3 x1 x2 x0 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz3, View.readCov_unit_zero (S := S8x128) _ hz]
  simp only [View.readAt_eq_ld, harg2.read_unread, harg3.read_unread, harg4.read_unread, harg6.read_unread,
    View.ld_unit_zero (S := S512x5) hz, View.ld_unit_zero (S := S1024x5) hz, View.ld_unit_zero (S := S512x1024) hz,
    View.ld_unit_zero (S := S8x128) hz]

end Cert.KernelIdeal.Point

end
-- ==== Proof.CellLaw.lean ====
/-
  One entry of the squared, masked prediction error, as each program computes it over the extended reals, and
  the law that joins the two forms.

  With `a` the matrix entry, `s` the score (the dot product of a user row and a movie row) and `μ ∈ {0, 1}`
  the mask "`a` is not -1":
    the kernel squares the masked difference:      ((a - σ s) · μ) · ((a - σ s) · μ)
    the reference masks the squared difference:    ((a - 1/(1 + e^(-s))) · (a - 1/(1 + e^(-s)))) · μ
  The logistic function σ IS 1/(1 + e^(-s)) on the extended reals, and since μ · μ = μ for μ ∈ {0, 1} the two
  products are equal — by commutativity and associativity of the product alone, so at infinite `a` too.
-/
import Idealize.ShloMosaic.PureOps.Ideal
import Idealize.ShloMosaic.PureOps.IdealRules

noncomputable section

namespace Cert.CellLaw

open Idealize.ShloMosaic

/-- A one-bit word read as a number: 0 or 1. -/
def bitVal (b : BitVec 1) : EReal := ((b.toNat : ℝ) : EReal)

theorem bitVal_cases (b : BitVec 1) : bitVal b = 0 ∨ bitVal b = 1 := by
  rcases BitVec.eq_zero_or_eq_one b with rfl | rfl
  · left; simp [bitVal]
  · right; simp [bitVal]

/-- Widening the bit to 32 bits and reading it signed gives the same number. -/
theorem toInt_setWidth_eq_bitVal (b : BitVec 1) : (((b.setWidth 32).toInt : ℝ) : EReal) = bitVal b := by
  rcases BitVec.eq_zero_or_eq_one b with rfl | rfl
  · simp [bitVal]
  · simp [bitVal]

/-- Squaring a product with a factor that is 0 or 1 keeps that factor once. -/
theorem sq_mul_bit (d μ : EReal) (hμ : μ = 0 ∨ μ = 1) : (d * μ) * (d * μ) = (d * d) * μ := by
  rcases hμ with rfl | rfl
  · simp
  · simp

/-- The pattern of `1.0` denotes the number one. -/
theorem one_f32 : Ideal.ofBits .f32 0x3F800000#32 = 1 := IdealRules.sign_bit.ideal_onePat .f32

/-- The kernel's entry: the masked difference, squared. The mask is the comparison's bit widened and converted. -/
def kcell (a s : EReal) : EReal :=
  ((a - Ideal.logistic s) * (((Ideal.cmp .one a (Ideal.ofBits .f32 0xBF800000#32)).setWidth 32).toInt : ℝ))
    * ((a - Ideal.logistic s) * (((Ideal.cmp .one a (Ideal.ofBits .f32 0xBF800000#32)).setWidth 32).toInt : ℝ))

/-- The reference's entry: the squared difference, masked. The logistic function is spelt out as a quotient. -/
def rcell (a s : EReal) : EReal :=
  ((a - Ideal.div (Ideal.ofBits .f32 0x3F800000#32) (Ideal.ofBits .f32 0x3F800000#32 + Ideal.exp (-s)))
      * (a - Ideal.div (Ideal.ofBits .f32 0x3F800000#32) (Ideal.ofBits .f32 0x3F800000#32 + Ideal.exp (-s))))
    * (((Ideal.cmp .une a (Ideal.ofBits .f32 0xBF800000#32)).toNat : ℝ) : EReal)

/-- The two entries are one extended real. -/
theorem kcell_eq_rcell (a s : EReal) : kcell a s = rcell a s := by
  unfold kcell rcell
  rw [toInt_setWidth_eq_bitVal, one_f32]
  show ((a - Ideal.logistic s) * bitVal _) * ((a - Ideal.logistic s) * bitVal _) = _
  rw [sq_mul_bit _ _ (bitVal_cases _)]
  rfl

end Cert.CellLaw

end
-- ==== Proof.SumLaws.lean ====
/-
  Sums over index sets, as the value proof meets them, in any commutative additive monoid (the extended reals
  are one): a sum over `Fin (m * n)` is the double sum over quotient and remainder; a sum read through a
  reshape is the sum of the operand; a sum over a rank-3 index set is the triple sum over its coordinates, and
  when only the entries at (·, 0, 0) are not zero it is the sum of those.
-/
import Idealize.ShloMosaic.PureOps.Ideal
import Idealize.ShloMosaic.Lib.ValueIdx

noncomputable section

open scoped BigOperators

namespace Cert.SumLaws

open Idealize.ShloMosaic Idealize.ShloMosaic.ValueIdx

variable {M : Type} [AddCommMonoid M]

/-- The number `j + n * i` below `m * n`, for `i < m` and `j < n`: position `j` of block `i`. -/
abbrev blockPos {m n : ℕ} (i : Fin m) (j : Fin n) : Fin (m * n) := finProdFinEquiv (i, j)

theorem blockPos_val {m n : ℕ} (i : Fin m) (j : Fin n) : (blockPos i j).val = j.val + n * i.val := rfl

/-- A sum over `Fin (m * n)` is the sum over the `m` blocks of the sum over the `n` positions in a block. -/
theorem sum_blocks (m n : ℕ) (f : Fin (m * n) → M) :
    ∑ x, f x = ∑ i : Fin m, ∑ j : Fin n, f (blockPos i j) := by
  rw [← Equiv.sum_comp (finProdFinEquiv (m := m) (n := n)) f, Fintype.sum_prod_type]

/-- A sum over a reshape's indices is the sum over the operand's: a reshape is a bijection of the index sets. -/
theorem sum_shapeCast {s t : Shape} (x : s.Idx → M) (h : s.ShapeCasts t) :
    ∑ j : t.Idx, shapeCast t x h j = ∑ k : s.Idx, x k := by
  unfold shapeCast
  exact Equiv.sum_comp (Shape.reshapeEquiv h) x

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- When every entry off the positions (·, 0, 0) is zero, the sum over the rank-3 index set is the sum of the
    entries at those positions. -/
theorem sum_idx3_corner {n0 n1 n2 : Nat} (f : (⟨3, ![n0, n1 + 1, n2 + 1]⟩ : Shape).Idx → M)
    (hz : ∀ (a : Fin n0) (b : Fin (n1 + 1)) (c : Fin (n2 + 1)), ¬(b = 0 ∧ c = 0) → f (ix3 a b c) = 0) :
    ∑ i, f i = ∑ a : Fin n0, f (ix3 a 0 0) := by
  rw [sum_idx3]
  refine Finset.sum_congr rfl fun a _ => ?_
  rw [Finset.sum_eq_single (0 : Fin (n1 + 1))]
  · rw [Finset.sum_eq_single (0 : Fin (n2 + 1))]
    · intro c _ hc; exact hz a 0 c fun h => hc h.2
    · intro h; exact absurd (Finset.mem_univ _) h
  · intro b _ hb
    exact Finset.sum_eq_zero fun c _ => hz a b c fun h => hb h.1
  · intro h; exact absurd (Finset.mem_univ _) h

end Cert.SumLaws

end
-- ==== Proof.KernelCell.lean ====
/-
  One update of the accumulator, read at an entry, at the ideal instance.

  The update adds to the accumulator's entry (0, 0) one number computed from the point's three blocks and adds
  zero to every other entry. The number is the sum, over the [512, 1024] entries (p, q) of the matrix block, of
      ((a - σ(s)) · μ)²,   a = the matrix entry,   s = Σ_k user[p, k] · movie[q, k],   μ = [a ≠ -1],
  where σ is the logistic function: the matrix product into a zero accumulator is the plain sum of products over
  the five shared columns (the narrowing of its operands to bf16 changes nothing over the extended reals), and
  the body's reduction of the squared block to a scalar is the sum of all its entries.
-/
import proofs.«129829_j63720134803627_1_alg».proof.Proof.Gen.KernelIdeal.Skeleton
import proofs.«129829_j63720134803627_1_alg».proof.Proof.CellLaw
import proofs.«129829_j63720134803627_1_alg».proof.Proof.SumLaws
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open scoped BigOperators

namespace Cert.KernelIdeal.Cell

open Cert.KernelIdeal Cert.KernelIdeal.Gen Idealize.ShloMosaic.ValueIdx Cert.CellLaw Cert.SumLaws

theorem lhs_D_0 (i : S512x1024.Idx) (q : dot_S512x5_S1024x5_S512x1024_1_1_0_0_n_n.contr.Idx) :
    (dot_S512x5_S1024x5_S512x1024_1_1_0_0_n_n.lhsIdx i q 0).val = (i 0).val := by
  unfold DotDims.lhsIdx
  rw [dif_neg (show ¬(0 : Fin S512x5.rank) ∈ dot_S512x5_S1024x5_S512x1024_1_1_0_0_n_n.lhsBatch by decide), dif_pos (show (0 : Fin S512x5.rank) ∈ dot_S512x5_S1024x5_S512x1024_1_1_0_0_n_n.lhsNonContracting by decide)]
  rfl
theorem lhs_D_1 (i : S512x1024.Idx) (q : dot_S512x5_S1024x5_S512x1024_1_1_0_0_n_n.contr.Idx) :
    (dot_S512x5_S1024x5_S512x1024_1_1_0_0_n_n.lhsIdx i q 1).val = (q ⟨0, by decide⟩).val :=
  dot_S512x5_S1024x5_S512x1024_1_1_0_0_n_n.lhsIdx_val_of_single rfl i q
theorem rhs_D_0 (i : S512x1024.Idx) (q : dot_S512x5_S1024x5_S512x1024_1_1_0_0_n_n.contr.Idx) :
    (dot_S512x5_S1024x5_S512x1024_1_1_0_0_n_n.rhsIdx i q 0).val = (i 1).val := by
  unfold DotDims.rhsIdx
  rw [dif_neg (show ¬(0 : Fin S1024x5.rank) ∈ dot_S512x5_S1024x5_S512x1024_1_1_0_0_n_n.rhsBatch by decide), dif_pos (show (0 : Fin S1024x5.rank) ∈ dot_S512x5_S1024x5_S512x1024_1_1_0_0_n_n.rhsNonContracting by decide)]
  rfl
theorem rhs_D_1 (i : S512x1024.Idx) (q : dot_S512x5_S1024x5_S512x1024_1_1_0_0_n_n.contr.Idx) :
    (dot_S512x5_S1024x5_S512x1024_1_1_0_0_n_n.rhsIdx i q 1).val = (q ⟨0, by decide⟩).val :=
  dot_S512x5_S1024x5_S512x1024_1_1_0_0_n_n.rhsIdx_val_of_single rfl i q

/-- The score of entry (p, q) of a block: the dot product of user row p and movie row q. -/
def score (x1 : Vec Ideal S512x5 .f32) (x2 : Vec Ideal S1024x5 .f32) (y : S512x1024.Idx) : EReal :=
  ∑ k : Fin 5, x1 (ix2 (y 0) k) * x2 (ix2 (y 1) k)

theorem matmul_at (x1 : Vec Ideal S512x5 .f32) (x2 : Vec Ideal S1024x5 .f32) (h : FTy.bits .bf16 < FTy.bits .f32) (y : S512x1024.Idx) :
    (matmul dot_S512x5_S1024x5_S512x1024_1_1_0_0_n_n none (truncf .bf16 x1 h) (truncf .bf16 x2 h) (constant S512x1024 .f32 0x00000000#32) : FVec Ideal S512x1024 .f32) y
      = score x1 x2 y := by
  simp only [matmul]
  rw [Ideal.matmul_constant_zero_apply, ← Equiv.sum_comp (contrEquiv1 dot_S512x5_S1024x5_S512x1024_1_1_0_0_n_n 5 rfl rfl).symm]
  unfold score
  refine Finset.sum_congr rfl fun k _ => ?_
  have hk := contrEquiv1_symm_val dot_S512x5_S1024x5_S512x1024_1_1_0_0_n_n 5 rfl rfl k
  have el : dot_S512x5_S1024x5_S512x1024_1_1_0_0_n_n.lhsIdx y ((contrEquiv1 dot_S512x5_S1024x5_S512x1024_1_1_0_0_n_n 5 rfl rfl).symm k) = ix2 (y 0) k := funext fun a => Fin.ext (by
    match a with
    | ⟨0, _⟩ => exact lhs_D_0 _ _
    | ⟨1, _⟩ => exact (lhs_D_1 _ _).trans hk)
  have er : dot_S512x5_S1024x5_S512x1024_1_1_0_0_n_n.rhsIdx y ((contrEquiv1 dot_S512x5_S1024x5_S512x1024_1_1_0_0_n_n 5 rfl rfl).symm k) = ix2 (y 1) k := funext fun a => Fin.ext (by
    match a with
    | ⟨0, _⟩ => exact rhs_D_0 _ _
    | ⟨1, _⟩ => exact (rhs_D_1 _ _).trans hk)
  rw [el, er]
  rfl

/-- The block's number: the sum over its entries of the kernel's squared masked error. -/
def blockErr (x0 : Vec Ideal S512x1024 .f32) (x1 : Vec Ideal S512x5 .f32) (x2 : Vec Ideal S1024x5 .f32) : EReal :=
  ∑ y : S512x1024.Idx, kcell (x0 y) (score x1 x2 y)

/-- The body's reduction of a [512, 1024] vector to one number — reshaped to [1, 512, 1024], summed over its two long
    axes into [1], reshaped to [1, 1, 1] and read at (0, 0, 0) — is the sum of all its entries. -/
theorem total_sum (v : FVec Ideal S512x1024 .f32) (h1 : S512x1024.ShapeCasts S1x512x1024) (h2 : S1x512x1024.Reduces [1, 2] S1)
    (hφ : FKind.Formats .f32) (hacc : (0x00000000#32 : BitVec 32) = FKind.add.neutral .f32 hφ) (h3 : S1.ShapeCasts S1x1x1)
    (h4 : ∀ a, (![0, 0, 0] : Fin 3 → Nat) a < S1x1x1.size a) :
    extractAt ![0, 0, 0] (shapeCast S1x1x1 (multiReduction .add [1, 2] S1 (shapeCast S1x512x1024 v h1) 0x00000000#32 h2 hφ hacc) h3) h4
      = ∑ y : S512x1024.Idx, v y := by
  unfold extractAt
  show (multiReduction .add [1, 2] S1 (shapeCast S1x512x1024 v h1) 0x00000000#32 h2 hφ hacc) (Shape.reshapeEquiv h3 _) = _
  rw [Ideal.multiReduction_add_total _ _ h2 (by decide) hφ hacc, sum_shapeCast]

theorem corner_bits : ∀ (r : Fin 8) (l : Fin 128),
    IntOp.andi (IntOp.cmpi .eq (BitVec.ofNat 32 r.val) 0#32) (IntOp.cmpi .eq (BitVec.ofNat 32 l.val) 0#32)
      = if r.val = 0 ∧ l.val = 0 then 1#1 else 0#1 := by decide +kernel

theorem pay3_apply (x1 : Vec Ideal S512x5 .f32) (x2 : Vec Ideal S1024x5 .f32) (x0 : Vec Ideal S512x1024 .f32)
    (acc : Vec Ideal S8x128 .f32) (r : Fin 8) (l : Fin 128) :
    k0_pay3 x1 x2 x0 acc (ix2 r l) = acc (ix2 r l) + (if r.val = 0 ∧ l.val = 0 then blockErr x0 x1 x2 else 0) := by
  unfold k0_pay3
  simp only [shapeCast_self]
  rw [addf_apply, select_apply]
  refine congrArg (acc (ix2 r l) + ·) ?_
  rw [broadcast_apply, broadcast_apply]
  show Scalar.select (IntOp.andi (IntOp.cmpi .eq (iota .tc S8x128 32 [0] iota_S8x128_d0_w32 (ix2 r l)) 0#32)
      (IntOp.cmpi .eq (iota .tc S8x128 32 [1] iota_S8x128_d1_w32 (ix2 r l)) 0#32)) _ _ = _
  rw [iota_single_apply, iota_single_apply]
  show Scalar.select (IntOp.andi (IntOp.cmpi .eq (BitVec.ofNat 32 r.val) 0#32) (IntOp.cmpi .eq (BitVec.ofNat 32 l.val) 0#32)) _ _ = _
  rw [corner_bits r l]
  by_cases h : r.val = 0 ∧ l.val = 0
  · rw [if_pos h, if_pos h, select_one]
    refine (total_sum _ _ _ _ _ _ _).trans ?_
    unfold blockErr
    refine Finset.sum_congr rfl fun y _ => ?_
    show kcell (x0 y) ((matmul dot_S512x5_S1024x5_S512x1024_1_1_0_0_n_n none (truncf .bf16 x1 bitsLt_bf16_f32) (truncf .bf16 x2 bitsLt_bf16_f32) (constant S512x1024 .f32 0x00000000#32) : FVec Ideal S512x1024 .f32) y) = _
    rw [matmul_at]
  · rw [if_neg h, if_neg h, select_zero]
    exact Ideal.ofBits_zero_f32

/-- The block the accumulator is reset to is zero everywhere. -/
theorem pay2_apply (i : S8x128.Idx) : k0_pay2 (F := Ideal) i = 0 := by
  unfold k0_pay2
  simp only [shapeCast_self]
  exact Ideal.ofBits_zero_f32

/-- The output block is the accumulator under a new leading axis of extent one. -/
theorem pay1_apply (v : Vec Ideal S8x128 .f32) (j : S1x8x128.Idx) : k0_pay1 v j = v (fun a => j a.succ) := by
  unfold k0_pay1
  exact shapeCast_addUnit_apply ![8, 128] v _ j

end Cert.KernelIdeal.Cell

end
-- ==== Proof.KernelAcc.lean ====
/-
  The accumulator over a row of the grid.

  The grid has 32 rows of 8 points (point `t` is row `t / 8`, position `t % 8`). What the scratch accumulator
  holds after a point is, by the generated per-point description of the run, the update of the zero block at a
  row's first point and the update of what the point before left at every other point: so after the row's last
  point it is the fold of eight updates. Read at an entry at the ideal instance, each update adds the point's
  number at entry (0, 0) and zero elsewhere, so the accumulator after the last point of row `q` holds at (0, 0)
  the sum of the numbers of points `8q … 8q + 7` and zero elsewhere; the output block written back there is that
  accumulator under a leading unit axis.
-/
import proofs.«129829_j63720134803627_1_alg».proof.Proof.KernelPoint
import Idealize.ShloMosaic.Lib.Pipeline.Value
import proofs.«129829_j63720134803627_1_alg».proof.Proof.KernelCell
import Idealize.ShloMosaic.Lib.ValueIdx

noncomputable section

open Idealize.ShloMosaic Idealize.ShloMosaic.TcCoe Idealize.SL.Sem
open Idealize.ShloMosaic.Pipeline (Dat)

namespace Cert.KernelIdeal.Acc

open Cert.KernelIdeal Cert.KernelIdeal.Gen Cert.KernelIdeal.Point

variable {F : FTy → Type} [FloatOps F]
variable (m : (ℓ : Loc nD τ sig) → Buf (Elt F) ℓ)

/-- The three input blocks at a grid point, at their literal types: the matrix block, the user rows, the movie rows. -/
abbrev ablk (c : Dev nD) (t : Fin cfg0.N) : Vec F S512x1024 .f32 := iblk m c 0 t
abbrev ublk (c : Dev nD) (t : Fin cfg0.N) : Vec F S512x5 .f32 := iblk m c 1 t
abbrev vblk (c : Dev nD) (t : Fin cfg0.N) : Vec F S1024x5 .f32 := iblk m c 2 t

/-- The accumulator in scratch memory after the body at point `n`. -/
def scr (c : Dev nD) (n : ℕ) (h : n < cfg0.N) : Vec F S8x128 .f32 := (outsAt0 m c n h).2

/-- At a row's first point the accumulator is the update of the zero block. -/
theorem scr_first (c : Dev nD) (n : ℕ) (h : n < cfg0.N) (h0 : n % 8 = 0) :
    scr m c n h = k0_pay3 (ublk m c ⟨n, h⟩) (vblk m c ⟨n, h⟩) (ablk m c ⟨n, h⟩) (k0_pay2 (F := F)) := by
  have h1 : ¬(⟨n, h⟩ : Fin cfg0.N).val % 8 = 7 := by dsimp only; omega
  unfold scr
  rw [outsAt0_A m c ⟨n, h⟩ h0 h1]
  dsimp only
  exact scratch_first (F := F) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) _ _ (iblk m c 0 ⟨n, h⟩) (iblk m c 1 ⟨n, h⟩) (iblk m c 2 ⟨n, h⟩)

/-- At every other point it is the update of what the point before left. -/
theorem scr_step (c : Dev nD) (n : ℕ) (h : n + 1 < cfg0.N) (h0 : ¬(n + 1) % 8 = 0) :
    scr m c (n + 1) h = k0_pay3 (ublk m c ⟨n + 1, h⟩) (vblk m c ⟨n + 1, h⟩) (ablk m c ⟨n + 1, h⟩) (scr m c n (Nat.lt_of_succ_lt h)) := by
  unfold scr
  by_cases h1 : (n + 1) % 8 = 7
  · rw [outsAt0_C m c ⟨n + 1, h⟩ h0 h1]
    dsimp only
    exact scratch_last (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (iblk m c 0 ⟨n + 1, h⟩) (iblk m c 1 ⟨n + 1, h⟩) (iblk m c 2 ⟨n + 1, h⟩) (outsAt0 m c n (Nat.lt_of_succ_lt h)).2
  · rw [outsAt0_B m c ⟨n + 1, h⟩ h0 h1]
    dsimp only
    exact scratch_inner (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (iblk m c 0 ⟨n + 1, h⟩) (iblk m c 1 ⟨n + 1, h⟩) (iblk m c 2 ⟨n + 1, h⟩) (outsAt0 m c n (Nat.lt_of_succ_lt h)).2

/-- The accumulator a row's first point `n` leaves, and the step every other point `n` makes from what the point before left. -/
abbrev resetAt (c : Dev nD) : (n : ℕ) → n < cfg0.N → Vec F S8x128 .f32 :=
  fun n h => k0_pay3 (ublk m c ⟨n, h⟩) (vblk m c ⟨n, h⟩) (ablk m c ⟨n, h⟩) (k0_pay2 (F := F))
abbrev stepAt (c : Dev nD) : (n : ℕ) → n < cfg0.N → Vec F S8x128 .f32 → Vec F S8x128 .f32 :=
  fun n h acc => k0_pay3 (ublk m c ⟨n, h⟩) (vblk m c ⟨n, h⟩) (ablk m c ⟨n, h⟩) acc

/-- So after point `t` the accumulator is the fold over the row's points up to `t`: the update of the zero block at the
    row's first point, then one update per point. -/
theorem scr_fold (c : Dev nD) (t : ℕ) (ht : t < cfg0.N) (h' : 8 * (t / 8) + t % 8 < cfg0.N) :
    scr m c t ht = Pipeline.accAt (resetAt m c) (stepAt m c) (8 * (t / 8)) (t % 8) h' :=
  Pipeline.eq_accAt_of_mod (scr m c) 8 (resetAt m c) (stepAt m c) (scr_first m c) (scr_step m c) (by norm_num) t ht h'

/-- At a row's last point the output's staging buffer holds the accumulator, reshaped to [1, 8, 128]. -/
theorem out_last_at (c : Dev nD) (t : Fin cfg0.N) (h1 : t.val % 8 = 7) :
    (outsAt0 m c t.val t.isLt).1 = k0_pay1 (scr m c t.val t.isLt) := by
  have h0 : ¬t.val % 8 = 0 := by omega
  unfold scr
  rw [outsAt0_C m c t h0 h1]
  dsimp only
  rw [out_last (F := F) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) (outsAt0 m c (t.val - 1) (Nat.lt_of_le_of_lt (Nat.sub_le _ _) t.isLt)).2,
    scratch_last (F := F) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) (outsAt0 m c (t.val - 1) (Nat.lt_of_le_of_lt (Nat.sub_le _ _) t.isLt)).2]

end Cert.KernelIdeal.Acc

/-! ## Read at an entry, at the ideal instance -/

namespace Cert.KernelIdeal.Acc

open Cert.KernelIdeal Cert.KernelIdeal.Gen Cert.KernelIdeal.Point Cert.KernelIdeal.Cell Idealize.ShloMosaic.ValueIdx
open scoped BigOperators

variable (m : (ℓ : Loc nD τ sig) → Buf (Elt Ideal) ℓ)

/-- The number point `n` adds: its block's sum of squared masked errors (zero past the grid, where it is never used). -/
def pointErr (c : Dev nD) (n : ℕ) : EReal :=
  if h : n < cfg0.N then blockErr (ablk m c ⟨n, h⟩) (ublk m c ⟨n, h⟩) (vblk m c ⟨n, h⟩) else 0

/-- What point `n` adds to each entry of the accumulator: its number at (0, 0), zero elsewhere. -/
def addend (c : Dev nD) (n : ℕ) (i : S8x128.Idx) : EReal :=
  if (i 0).val = 0 ∧ (i 1).val = 0 then pointErr m c n else 0

/-- One update at an entry: the entry before plus the point's addend. -/
theorem update_apply (c : Dev nD) (n : ℕ) (h : n < cfg0.N) (acc : Vec Ideal S8x128 .f32) (i : S8x128.Idx) :
    k0_pay3 (ublk m c ⟨n, h⟩) (vblk m c ⟨n, h⟩) (ablk m c ⟨n, h⟩) acc i = acc i + addend m c n i := by
  obtain ⟨r, l, rfl⟩ : ∃ (r : Fin 8) (l : Fin 128), i = ix2 r l := ⟨i 0, i 1, eq_ix2 i⟩
  rw [pay3_apply]
  unfold addend pointErr
  rw [dif_pos h]

/-- The accumulator after the last point of row `q`, at an entry: the reset block's entry plus the eight addends. -/
theorem scr_row_end (c : Dev nD) (q : ℕ) (h : 8 * q + 7 < cfg0.N) (i : S8x128.Idx) :
    scr m c (8 * q + 7) h i = k0_pay2 (F := Ideal) i + ∑ s ∈ Finset.range 8, addend m c (8 * q + s) i := by
  rw [Pipeline.eq_accAt (scr m c) 8 (resetAt m c) (stepAt m c) (scr_first m c) (scr_step m c) q 7 (by norm_num) h]
  exact Pipeline.accAt_add_apply (resetAt m c) (stepAt m c) (k0_pay2 (F := Ideal)) (addend m c) (8 * q) 7
    (fun hb i => update_apply m c (8 * q) hb _ i) (fun n hn acc i _ _ => update_apply m c n hn acc i) 7 le_rfl h i

/-- The accumulator at two spellings of one point. -/
theorem scr_congr (c : Dev nD) (n n' : ℕ) (e : n = n') (h : n < cfg0.N) (h' : n' < cfg0.N) : scr m c n h = scr m c n' h' := by
  subst e; rfl

end Cert.KernelIdeal.Acc

end
-- ==== Proof.TotalLaw.lean ====
/-
  The number both programs compute first: the total squared masked prediction error
      Σ_{a < 16384} Σ_{b < 8192}  ((A[a, b] - 1/(1 + e^(-s))) · (A[a, b] - 1/(1 + e^(-s)))) · [A[a, b] ≠ -1],
      s = Σ_{k < 5} U[a, k] · V[b, k],
  of the matrix `A`, the user features `U` and the movie features `V`, over the extended reals; and the same sum cut
  into the kernel's 32 × 8 blocks of 512 × 1024 entries (sums over the extended reals may be re-grouped and
  re-ordered freely: addition there is commutative and associative).
-/
import proofs.«129829_j63720134803627_1_alg».proof.Proof.CellLaw
import proofs.«129829_j63720134803627_1_alg».proof.Proof.SumLaws

noncomputable section

open scoped BigOperators

namespace Cert.TotalLaw

open Idealize.ShloMosaic Idealize.ShloMosaic.ValueIdx Cert.CellLaw Cert.SumLaws

/-- Entry (a, b) of the masked squared error. -/
def entry (A : (⟨2, ![16384, 8192]⟩ : Shape).Idx → EReal) (U : (⟨2, ![16384, 5]⟩ : Shape).Idx → EReal)
    (V : (⟨2, ![8192, 5]⟩ : Shape).Idx → EReal) (a : Fin 16384) (b : Fin 8192) : EReal :=
  rcell (A (ix2 a b)) (∑ k : Fin 5, U (ix2 a k) * V (ix2 b k))

/-- The total over all entries. -/
def total (A : (⟨2, ![16384, 8192]⟩ : Shape).Idx → EReal) (U : (⟨2, ![16384, 5]⟩ : Shape).Idx → EReal)
    (V : (⟨2, ![8192, 5]⟩ : Shape).Idx → EReal) : EReal :=
  ∑ a : Fin 16384, ∑ b : Fin 8192, entry A U V a b

/-- Row `p` of row block `i`, and column `q` of column block `s`, as indices of the whole matrix. -/
def rowAt (i : Fin 32) (p : Fin 512) : Fin 16384 := ⟨512 * i.val + p.val, by have := i.isLt; have := p.isLt; omega⟩
def colAt (s : Fin 8) (q : Fin 1024) : Fin 8192 := ⟨1024 * s.val + q.val, by have := s.isLt; have := q.isLt; omega⟩

/-- The total, block by block: over the 32 row blocks and 8 column blocks, the sum over a block's 512 × 1024 entries. -/
theorem total_by_blocks (A : (⟨2, ![16384, 8192]⟩ : Shape).Idx → EReal) (U : (⟨2, ![16384, 5]⟩ : Shape).Idx → EReal)
    (V : (⟨2, ![8192, 5]⟩ : Shape).Idx → EReal) :
    total A U V = ∑ i : Fin 32, ∑ s : Fin 8, ∑ p : Fin 512, ∑ q : Fin 1024, entry A U V (rowAt i p) (colAt s q) := by
  unfold total
  have hrow : ∀ g : Fin 16384 → EReal, ∑ a : Fin 16384, g a = ∑ i : Fin 32, ∑ p : Fin 512, g (rowAt i p) := fun g =>
    (sum_blocks 32 512 g).trans (Finset.sum_congr rfl fun i _ => Finset.sum_congr rfl fun p _ =>
      congrArg g (Fin.ext (by show p.val + 512 * i.val = 512 * i.val + p.val; omega)))
  have hcol : ∀ g : Fin 8192 → EReal, ∑ b : Fin 8192, g b = ∑ s : Fin 8, ∑ q : Fin 1024, g (colAt s q) := fun g =>
    (sum_blocks 8 1024 g).trans (Finset.sum_congr rfl fun s _ => Finset.sum_congr rfl fun q _ =>
      congrArg g (Fin.ext (by show q.val + 1024 * s.val = 1024 * s.val + q.val; omega)))
  rw [hrow]
  refine Finset.sum_congr rfl fun i _ => ?_
  rw [Finset.sum_congr rfl fun p _ => hcol (fun b => entry A U V (rowAt i p) b)]
  exact Finset.sum_comm

end Cert.TotalLaw

end
-- ==== Proof.KernelArray.lean ====
/-
  The output array after the run, and its sum.

  Block `q` of the [32, 8, 128] output array is written back once, after the last point of grid row `q`, from the
  accumulator: so the array ends holding at (q, 0, 0) the sum of the numbers of points `8q … 8q + 7` and zero at every
  other index, and its sum over all indices is the sum of all 256 points' numbers. Point `8i + s` reads the
  [512, 1024] block (i, s) of the matrix, user rows `512i …` and movie rows `1024s …`, and its number is the sum of the
  squared masked errors of that block's entries (in the kernel's form, equal entry by entry to the reference's):
  so the array's sum is the total squared masked error of the whole matrix.
-/
import proofs.«129829_j63720134803627_1_alg».proof.Proof.KernelAcc
import proofs.«129829_j63720134803627_1_alg».proof.Proof.TotalLaw

noncomputable section

open Idealize.ShloMosaic Idealize.ShloMosaic.TcCoe Idealize.SL.Sem
open Idealize.ShloMosaic.Pipeline (Dat)
open scoped BigOperators

namespace Cert.KernelIdeal.Arr

open Cert.KernelIdeal Cert.KernelIdeal.Gen Cert.KernelIdeal.Point Cert.KernelIdeal.Cell Cert.KernelIdeal.Acc
open Idealize.ShloMosaic.ValueIdx Cert.CellLaw Cert.SumLaws Cert.TotalLaw

variable (m : (ℓ : Loc nD τ sig) → Buf (Elt Ideal) ℓ)

/-- The printed index maps, decided over the grid: point `t` is row `t / 8`, position `t % 8`; the matrix window moves
    with both, the user rows with the row, the movie rows with the position, the output block with the row. -/
theorem idx_facts : ∀ t : Fin cfg0.N,
    win0_0.index t (0 : Fin 2) = t.val / 8 ∧ win0_0.index t (1 : Fin 2) = t.val % 8
    ∧ win0_1.index t (0 : Fin 2) = t.val / 8 ∧ win0_1.index t (1 : Fin 2) = 0
    ∧ win0_2.index t (0 : Fin 2) = t.val % 8 ∧ win0_2.index t (1 : Fin 2) = 0
    ∧ win0_3.index t (0 : Fin 3) = t.val / 8 ∧ win0_3.index t (1 : Fin 3) = 0 ∧ win0_3.index t (2 : Fin 3) = 0 :=
  (by decide +kernel : ∀ t : Fin grid0.N, _)

/-- The two trailing coordinates of an index of the output array, as an index of the accumulator. -/
abbrev tail2 (idx : S32x8x128.Idx) : S8x128.Idx :=
  ix2 (n0 := 8) (n1 := 128) ⟨(idx 1).val, (idx 1).isLt⟩ ⟨(idx 2).val, (idx 2).isLt⟩

/-- The output array after the run: at (q, r, l) the reset block's entry (r, l) plus the addends of row `q`'s eight points. -/
def outArr (c : Dev nD) : S32x8x128.Idx → EReal := fun idx =>
  k0_pay2 (F := Ideal) (tail2 idx) + ∑ s ∈ Finset.range 8, addend m c (8 * (idx 0).val + s) (tail2 idx)

/-- The block written back after row `q`, at an entry, is `outArr` at the index of row `q` with the same two trailing coordinates. -/
theorem row_block_entry (c : Dev nD) (q : ℕ) (h : 8 * q + 7 < cfg0.N) (j : S1x8x128.Idx) (idx : S32x8x128.Idx)
    (h0 : (idx 0).val = q) (hs : ∀ a : Fin 2, (idx a.succ).val = (j a.succ).val) :
    k0_pay1 (scr m c (8 * q + 7) h) j = outArr m c idx := by
  have e : (fun a : Fin 2 => j a.succ : S8x128.Idx) = tail2 idx := funext fun a => Fin.ext (by
    match a with
    | ⟨0, _⟩ => exact (hs 0).symm
    | ⟨1, _⟩ => exact (hs 1).symm)
  refine (pay1_apply _ j).trans ((scr_row_end m c q h _).trans ?_)
  unfold outArr
  rw [e, h0]

/-- What the last point of a row writes back is that row's block of `outArr`. -/
theorem flushed_eq (c : Dev nD) (t : Fin cfg0.N) (hf : (cfg0.win 3).flush t = true) :
    (dats m 0 c).flushed 3 t = ((cfg0.win 3).blk t).view.read (Elt Ideal) (outArr m c) := by
  have h7 : t.val % 8 = 7 := (flush0_3 t).mp hf
  have hN : t.val < 256 := lt_of_lt_of_eq t.isLt (show cfg0.N = 256 from N_0)
  show (cfg0.win 3).cut (grid0.coords t) ((dats m 0 c).after 3 t) = _
  rw [after0_3, out_last_at m c t h7]
  funext j
  rw [View.read_apply]
  show k0_pay1 (scr m c t.val t.isLt) j = outArr m c (((cfg0.win 3).blk t).view.emb j)
  obtain ⟨-, -, -, -, -, -, e0, e1, e2⟩ := idx_facts t
  have hj0 : (j 0).val < 1 := (j 0).isLt
  have hlt : 8 * (t.val / 8) + 7 < cfg0.N := lt_of_lt_of_eq (by omega : 8 * (t.val / 8) + 7 < 256) (show cfg0.N = 256 from N_0).symm
  rw [scr_congr m c t.val (8 * (t.val / 8) + 7) (by omega) t.isLt hlt]
  refine row_block_entry m c (t.val / 8) hlt j _ ?_ ?_
  · show win0_3.index t (0 : Fin 3) * 1 + 1 * (j 0).val = _
    omega
  · intro a
    match a with
    | ⟨0, _⟩ => show win0_3.index t (1 : Fin 3) * 8 + 1 * (j 1).val = (j 1).val; omega
    | ⟨1, _⟩ => show win0_3.index t (2 : Fin 3) * 128 + 1 * (j 2).val = (j 2).val; omega

/-- Every index of the output array lies in the block written back after the last point of its row. -/
theorem covered (i : S32x8x128.Idx) :
    ∃ t : Fin cfg0.N, (cfg0.win 3).flush t = true ∧ i ∈ ((cfg0.win 3).blk t).view.set := by
  have hi0 : (i 0).val < 32 := (i 0).isLt
  have hi1 : (i 1).val < 8 := (i 1).isLt
  have hi2 : (i 2).val < 128 := (i 2).isLt
  have hlt : 8 * (i 0).val + 7 < cfg0.N := lt_of_lt_of_eq (by omega : 8 * (i 0).val + 7 < 256) (show cfg0.N = 256 from N_0).symm
  refine ⟨⟨8 * (i 0).val + 7, hlt⟩, (flush0_3 _).mpr (by dsimp only; omega), ?_⟩
  obtain ⟨-, -, -, -, -, -, e0, e1, e2⟩ := idx_facts ⟨8 * (i 0).val + 7, hlt⟩
  dsimp only at e0
  show i ∈ ((View.whole main_v0).slice (win0_3.rect ⟨8 * (i 0).val + 7, hlt⟩)).set
  rw [View.set_slice_whole, Rect.mem_set_unit]
  intro a
  match a with
  | ⟨0, _⟩ =>
    show win0_3.index ⟨8 * (i 0).val + 7, hlt⟩ (0 : Fin 3) * 1 ≤ (i 0).val ∧ (i 0).val < win0_3.index ⟨8 * (i 0).val + 7, hlt⟩ (0 : Fin 3) * 1 + 1
    omega
  | ⟨1, _⟩ =>
    show win0_3.index ⟨8 * (i 0).val + 7, hlt⟩ (1 : Fin 3) * 8 ≤ (i 1).val ∧ (i 1).val < win0_3.index ⟨8 * (i 0).val + 7, hlt⟩ (1 : Fin 3) * 8 + 8
    omega
  | ⟨2, _⟩ =>
    show win0_3.index ⟨8 * (i 0).val + 7, hlt⟩ (2 : Fin 3) * 128 ≤ (i 2).val ∧ (i 2).val < win0_3.index ⟨8 * (i 0).val + 7, hlt⟩ (2 : Fin 3) * 128 + 128
    omega

/-- So the output array ends holding `outArr`. -/
theorem final_out (c : Dev nD) : (dats m 0 c).arrAt 3 cfg0.N = outArr m c :=
  (dats m 0 c).arrAt_eq_of_cover 3 (outArr m c) (flushed_eq m c) covered

/-! ## The sum of the output array -/

/-- The matrix block of point `8i + s` at (p, q) is the matrix at (512i + p, 1024s + q). -/
theorem ablk_at (c : Dev nD) (i : Fin 32) (s : Fin 8) (h : 8 * i.val + s.val < cfg0.N) (p : Fin 512) (q : Fin 1024) :
    ablk m c ⟨8 * i.val + s.val, h⟩ (ix2 p q) = m ((c : Thread nD τ).loc main_arg0) (ix2 (rowAt i p) (colAt s q)) := by
  obtain ⟨e0, e1, -⟩ := idx_facts ⟨8 * i.val + s.val, h⟩
  dsimp only at e0 e1
  have hi := i.isLt
  have hs := s.isLt
  show iblk m c 0 ⟨8 * i.val + s.val, h⟩ (ix2 p q) = _
  unfold iblk
  rw [View.read_apply]
  show m ((c : Thread nD τ).loc main_arg0) _ = m ((c : Thread nD τ).loc main_arg0) _
  congr 1
  funext a
  apply Fin.ext
  match a with
  | ⟨0, _⟩ => show win0_0.index ⟨8 * i.val + s.val, h⟩ (0 : Fin 2) * 512 + 1 * p.val = 512 * i.val + p.val; omega
  | ⟨1, _⟩ => show win0_0.index ⟨8 * i.val + s.val, h⟩ (1 : Fin 2) * 1024 + 1 * q.val = 1024 * s.val + q.val; omega

/-- Its user rows are rows `512i …` of the user features … -/
theorem ublk_at (c : Dev nD) (i : Fin 32) (s : Fin 8) (h : 8 * i.val + s.val < cfg0.N) (p : Fin 512) (k : Fin 5) :
    ublk m c ⟨8 * i.val + s.val, h⟩ (ix2 p k) = m ((c : Thread nD τ).loc main_arg1) (ix2 (rowAt i p) k) := by
  obtain ⟨-, -, e0, e1, -⟩ := idx_facts ⟨8 * i.val + s.val, h⟩
  dsimp only at e0 e1
  have hi := i.isLt
  have hs := s.isLt
  show iblk m c 1 ⟨8 * i.val + s.val, h⟩ (ix2 p k) = _
  unfold iblk
  rw [View.read_apply]
  show m ((c : Thread nD τ).loc main_arg1) _ = m ((c : Thread nD τ).loc main_arg1) _
  congr 1
  funext a
  apply Fin.ext
  match a with
  | ⟨0, _⟩ => show win0_1.index ⟨8 * i.val + s.val, h⟩ (0 : Fin 2) * 512 + 1 * p.val = 512 * i.val + p.val; omega
  | ⟨1, _⟩ => show win0_1.index ⟨8 * i.val + s.val, h⟩ (1 : Fin 2) * 5 + 1 * k.val = k.val; omega

/-- … and its movie rows are rows `1024s …` of the movie features. -/
theorem vblk_at (c : Dev nD) (i : Fin 32) (s : Fin 8) (h : 8 * i.val + s.val < cfg0.N) (q : Fin 1024) (k : Fin 5) :
    vblk m c ⟨8 * i.val + s.val, h⟩ (ix2 q k) = m ((c : Thread nD τ).loc main_arg2) (ix2 (colAt s q) k) := by
  obtain ⟨-, -, -, -, e0, e1, -⟩ := idx_facts ⟨8 * i.val + s.val, h⟩
  dsimp only at e0 e1
  have hi := i.isLt
  have hs := s.isLt
  show iblk m c 2 ⟨8 * i.val + s.val, h⟩ (ix2 q k) = _
  unfold iblk
  rw [View.read_apply]
  show m ((c : Thread nD τ).loc main_arg2) _ = m ((c : Thread nD τ).loc main_arg2) _
  congr 1
  funext a
  apply Fin.ext
  match a with
  | ⟨0, _⟩ => show win0_2.index ⟨8 * i.val + s.val, h⟩ (0 : Fin 2) * 1024 + 1 * q.val = 1024 * s.val + q.val; omega
  | ⟨1, _⟩ => show win0_2.index ⟨8 * i.val + s.val, h⟩ (1 : Fin 2) * 5 + 1 * k.val = k.val; omega

/-- The number of point `8i + s` is the sum of the entries of block (i, s) of the masked squared error. -/
theorem pointErr_eq (c : Dev nD) (i : Fin 32) (s : Fin 8) :
    pointErr m c (8 * i.val + s.val) = ∑ p : Fin 512, ∑ q : Fin 1024,
      entry (m ((c : Thread nD τ).loc main_arg0)) (m ((c : Thread nD τ).loc main_arg1)) (m ((c : Thread nD τ).loc main_arg2)) (rowAt i p) (colAt s q) := by
  have h : 8 * i.val + s.val < cfg0.N :=
    lt_of_lt_of_eq (by have := i.isLt; have := s.isLt; omega : 8 * i.val + s.val < 256) (show cfg0.N = 256 from N_0).symm
  unfold pointErr
  rw [dif_pos h]
  unfold blockErr
  rw [sum_idx2]
  refine Finset.sum_congr rfl fun p _ => Finset.sum_congr rfl fun q _ => ?_
  rw [kcell_eq_rcell, ablk_at m c i s h p q]
  unfold entry score
  refine congrArg (rcell _) (Finset.sum_congr rfl fun k _ => ?_)
  show ublk m c ⟨8 * i.val + s.val, h⟩ (ix2 p k) * vblk m c ⟨8 * i.val + s.val, h⟩ (ix2 q k) = _
  rw [ublk_at m c i s h p k, vblk_at m c i s h q k]

/-- The sum of the output array over all its indices is the total squared masked error. -/
theorem sum_outArr (c : Dev nD) :
    ∑ idx : S32x8x128.Idx, outArr m c idx
      = total (m ((c : Thread nD τ).loc main_arg0)) (m ((c : Thread nD τ).loc main_arg1)) (m ((c : Thread nD τ).loc main_arg2)) := by
  have hz : ∀ (a : Fin 32) (b : Fin (7 + 1)) (d : Fin (127 + 1)), ¬(b = 0 ∧ d = 0) → outArr m c (ix3 a b d) = 0 := by
    intro a b d hbd
    have hadd : ∀ n, addend m c n (tail2 (ix3 a b d)) = 0 := fun n => by
      unfold addend
      exact if_neg fun h => hbd ⟨Fin.ext h.1, Fin.ext h.2⟩
    unfold outArr
    rw [pay2_apply]
    simp only [hadd, Finset.sum_const_zero, add_zero]
  refine (sum_idx3_corner (n0 := 32) (n1 := 7) (n2 := 127) (outArr m c) hz).trans ?_
  rw [total_by_blocks]
  refine Finset.sum_congr rfl fun i _ => ?_
  unfold outArr
  rw [pay2_apply, zero_add, Finset.sum_range]
  refine Finset.sum_congr rfl fun s _ => ?_
  unfold addend
  rw [if_pos ⟨rfl, rfl⟩]
  exact pointErr_eq m c i s

end Cert.KernelIdeal.Arr

end
-- ==== Proof.KernelRun.lean ====
/-
  The idealized kernel's run, read: after the kernel region the host sums the [32, 8, 128] output array and adds the
  two regularisation terms (0.3 times the sum of the Euclidean norms of the rows of each feature array). The
  generated frame run leaves the result buffer at those host operations applied to the arrays as the region left
  them: the output array at its closed form, the feature arrays unchanged.
-/
import proofs.«129829_j63720134803627_1_alg».proof.Proof.KernelArray
import Idealize.ShloMosaic.Lib.StableHlo.Run

noncomputable section

open Idealize.ShloMosaic Idealize.ShloMosaic.TcCoe Idealize.SL.Sem
open Idealize.ShloMosaic.Pipeline (Dat)
open scoped BigOperators

namespace Cert.KernelIdeal.Run

open Cert.KernelIdeal Cert.KernelIdeal.Gen Cert.KernelIdeal.Acc Cert.KernelIdeal.Arr
open Idealize.ShloMosaic.StableHlo

variable (m : (ℓ : Loc nD τ sig) → Buf (Elt Ideal) ℓ) (ρ : Dev nD → PrngReg)

/-- The program's result from the kernel's output array and the two feature arrays: the sum of the output array, plus
    0.3 times the sum of the user rows' Euclidean norms, plus 0.3 times the sum of the movie rows' norms. -/
def result (G : FVec Ideal S32x8x128 .f32) (U : FVec Ideal S16384x5 .f32) (V : FVec Ideal S8192x5 .f32) : FVec Ideal S_ .f32 :=
  addf
    (addf (Host.reduceAdd G (constant S_ .f32 0x00000000#32) reducesTo_S32x8x128_S_d0_1_2 h_S_)
      (mulf (constant S_ .f32 0x3E99999A#32)
        (Host.reduceAdd (Host.sqrt (Host.reduceAdd (mulf U U) (constant S_ .f32 0x00000000#32) reducesTo_S16384x5_S16384_d1 h_S_))
          (constant S_ .f32 0x00000000#32) reducesTo_S16384_S_d0 h_S_)))
    (mulf (constant S_ .f32 0x3E99999A#32)
      (Host.reduceAdd (Host.sqrt (Host.reduceAdd (mulf V V) (constant S_ .f32 0x00000000#32) reducesTo_S8192x5_S8192_d1 h_S_))
        (constant S_ .f32 0x00000000#32) reducesTo_S8192_S_d0 h_S_))

/-- What the host lines after the kernel leave in the result buffer. -/
theorem tail_result (c : Dev nD) :
    Pipeline.afterTail₀ cfgs (dats m) 0 (V0 m) [hostOps1, hostOps1_1, hostOps1_2, hostOps1_3, hostOps1_4] c main_v9
      = result (outArr m c) (m ((c.tc : Thread nD τ).loc main_arg1)) (m ((c.tc : Thread nD τ).loc main_arg2)) := by
  have e0 : Pipeline.withArrays (cfgs 0).spec c (V0 m c) (fun w => (dats m 0 c).arrAt w (cfgs 0).N) (Proc.devRef .tc main_v0) = outArr m c :=
    (Pipeline.withArrays_arr spec0 launch0.win.arr_inj c _ _ 3).trans (final_out m c)
  have e1 : Pipeline.withArrays (cfgs 0).spec c (V0 m c) (fun w => (dats m 0 c).arrAt w (cfgs 0).N) (Proc.devRef .tc main_arg1) = m ((c.tc : Thread nD τ).loc main_arg1) :=
    (Pipeline.withArrays_arr spec0 launch0.win.arr_inj c _ _ 1).trans (((dats m 0 c).arrAt_in 1 rfl _).trans ((A_eq m c 1).trans (V_main_arg1 m c)))
  have e2 : Pipeline.withArrays (cfgs 0).spec c (V0 m c) (fun w => (dats m 0 c).arrAt w (cfgs 0).N) (Proc.devRef .tc main_arg2) = m ((c.tc : Thread nD τ).loc main_arg2) :=
    (Pipeline.withArrays_arr spec0 launch0.win.arr_inj c _ _ 2).trans (((dats m 0 c).arrAt_in 2 rfl _).trans ((A_eq m c 2).trans (V_main_arg2 m c)))
  unfold Pipeline.afterTail₀
  simp only [hostOps1, hostOps1_1, hostOps1_2, hostOps1_3, hostOps1_4, List.flatten_cons, List.flatten_nil, List.append_nil, List.cons_append, List.nil_append]
  after_results
  show result (Pipeline.withArrays (cfgs 0).spec c (V0 m c) (fun w => (dats m 0 c).arrAt w (cfgs 0).N) (Proc.devRef .tc main_v0))
    (Pipeline.withArrays (cfgs 0).spec c (V0 m c) (fun w => (dats m 0 c).arrAt w (cfgs 0).N) (Proc.devRef .tc main_arg1))
    (Pipeline.withArrays (cfgs 0).spec c (V0 m c) (fun w => (dats m 0 c).arrAt w (cfgs 0).N) (Proc.devRef .tc main_arg2)) = _
  rw [e0, e1, e2]

/-- The run, read: the result buffer at `result` of the output array's closed form and the feature arrays; the arguments unchanged. -/
theorem run : θ_run defs (onTc (τ := τ) (main (F := Ideal))) ⟨m, fun _ => 0, ρ⟩ fun r => ∀ c : Dev nD,
      r.2.mem ((c.tc : Thread nD τ).loc main_v9) = result (outArr m c) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).2 main_v9 (by decide)).trans (tail_result m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Run

end
-- ==== Proof.RefValue.lean ====
/-
  The reference, read: its masked squared error array holds at (a, b) the entry `TotalLaw.entry`, so the sum of
  that array over both axes is zero plus the total `TotalLaw.total` of the three argument arrays. The generated
  read-at-an-index lemmas give each operation at an index; chained from the product with the mask down to the
  constants they leave exactly the entry's term.
-/
import proofs.«129829_j63720134803627_1_alg».proof.Proof.Gen.ReferenceIdeal.Read
import proofs.«129829_j63720134803627_1_alg».proof.Proof.TotalLaw

noncomputable section

open scoped BigOperators

namespace Cert.ReferenceIdeal.RefValue

open Cert.ReferenceIdeal Cert.ReferenceIdeal.Read Idealize.ShloMosaic Idealize.ShloMosaic.ValueIdx
open Cert.CellLaw Cert.SumLaws Cert.TotalLaw

/-- At entry (a, b) the dot product reads user row `a` … -/
theorem lidx_eq (a : Fin 16384) (b : Fin 8192) (k : Fin 5) : lidx_main_v3 (ix2 a b) k = ix2 a k :=
  funext fun d => by match d with | ⟨0, _⟩ => rfl | ⟨1, _⟩ => rfl
/-- … and movie row `b`. -/
theorem ridx_eq (a : Fin 16384) (b : Fin 8192) (k : Fin 5) : ridx_main_v3 (ix2 a b) k = ix2 b k :=
  funext fun d => by match d with | ⟨0, _⟩ => rfl | ⟨1, _⟩ => rfl

/-- The masked squared error array at (a, b). -/
theorem sqerr_entry (x0 : (⟨S16384x8192, .f32⟩ : BufTy).Contents (Elt Ideal)) (x1 : (⟨S16384x5, .f32⟩ : BufTy).Contents (Elt Ideal))
    (x2 : (⟨S8192x5, .f32⟩ : BufTy).Contents (Elt Ideal)) (a : Fin 16384) (b : Fin 8192) :
    val_main_v12 (F := Ideal) x0 x1 x2 (ix2 a b) = entry x0 x1 x2 a b := by
  rw [val_main_v12_apply, val_main_v11_apply, val_main_v10_apply, val_main_v9_apply, val_main_v8_apply, val_main_v7_apply,
    val_main_v6_apply, val_main_v5_apply, val_main_v4_apply, val_main_v3_apply, val_main_v2_apply, val_main_v1_apply,
    val_main_v0_apply]
  simp only [lidx_eq, ridx_eq]
  rfl

/-- The sum of the array over both axes, from the zero: zero plus the total. -/
theorem sum_eq_total (x0 : (⟨S16384x8192, .f32⟩ : BufTy).Contents (Elt Ideal)) (x1 : (⟨S16384x5, .f32⟩ : BufTy).Contents (Elt Ideal))
    (x2 : (⟨S8192x5, .f32⟩ : BufTy).Contents (Elt Ideal)) (i : S_.Idx) :
    val_main_v13 (F := Ideal) x0 x1 x2 i = 0 + total x0 x1 x2 := by
  rw [val_main_v13_apply, sum_idx2]
  refine congrArg₂ (· + ·) ?_ ?_
  · exact Ideal.ofBits_zero_f32
  · unfold total
    exact Finset.sum_congr rfl fun a _ => Finset.sum_congr rfl fun b _ => sqerr_entry x0 x1 x2 a b

/-- The result: the sum, plus the two regularisation terms, which read only the feature arrays. -/
theorem result_split (x0 : (⟨S16384x8192, .f32⟩ : BufTy).Contents (Elt Ideal)) (x1 : (⟨S16384x5, .f32⟩ : BufTy).Contents (Elt Ideal))
    (x2 : (⟨S8192x5, .f32⟩ : BufTy).Contents (Elt Ideal)) :
    val_main_v21 (F := Ideal) x0 x1 x2
      = (addf (addf (val_main_v13 (F := Ideal) x0 x1 x2 : FVec Ideal S_ .f32) (val_main_v16 (F := Ideal) x1 : FVec Ideal S_ .f32) : FVec Ideal S_ .f32)
          (val_main_v19 (F := Ideal) x2 : FVec Ideal S_ .f32) : FVec Ideal S_ .f32) := rfl

end Cert.ReferenceIdeal.RefValue

end
-- ==== Proof.lean ====
/-
  The certificate of the masked matrix-factorisation loss: a Pallas kernel that streams the [16384, 8192] rating
  matrix through [512, 1024] blocks, fusing the skinny matrix product of the user and movie features, the logistic
  function, the mask of missing ratings (-1) and the squared error, and accumulating each grid row's eight block
  sums in a scratch accumulator whose entry (0, 0) is written out once per row; against jnp's reference, which
  computes the whole masked squared-error array and sums it.

  Over the extended reals both programs end at
      Σ_{a, b} ((A[a, b] - σ(U[a, ·] · V[b, ·]))² · [A[a, b] ≠ -1])  +  0.3 · Σ_a ‖U[a, ·]‖  +  0.3 · Σ_b ‖V[b, ·]‖ :
  the kernel squares the masked difference where the reference masks the squared difference (equal, the mask
  being 0 or 1), the logistic function is the reference's 1/(1 + e^(-s)), the narrowing of the matrix product's
  operands to bf16 is the identity there, and the kernel's sum — by blocks, rows of the grid, then over the output
  array — is a re-grouping of the reference's one sum, which addition's commutativity and associativity allow. The
  regularisation terms are the same host operations in both programs. The ideal pass rewrote nothing, so
  `preserves` is trivial, and no law used needs the inputs finite.
-/
import proofs.«129829_j63720134803627_1_alg».proof.Defs
import proofs.«129829_j63720134803627_1_alg».proof.Proof.Gen.Kernel
import proofs.«129829_j63720134803627_1_alg».proof.Proof.Gen.Kernel.Skeleton
import proofs.«129829_j63720134803627_1_alg».proof.Proof.Gen.Kernel.Launch
import proofs.«129829_j63720134803627_1_alg».proof.Proof.Gen.Kernel.Points
import proofs.«129829_j63720134803627_1_alg».proof.Proof.Gen.Kernel.Frame
import proofs.«129829_j63720134803627_1_alg».proof.Proof.Gen.KernelIdeal
import proofs.«129829_j63720134803627_1_alg».proof.Proof.Gen.KernelIdeal.Skeleton
import proofs.«129829_j63720134803627_1_alg».proof.Proof.Gen.KernelIdeal.Launch
import proofs.«129829_j63720134803627_1_alg».proof.Proof.Gen.KernelIdeal.Points
import proofs.«129829_j63720134803627_1_alg».proof.Proof.Gen.KernelIdeal.Frame
import proofs.«129829_j63720134803627_1_alg».proof.Proof.Gen.ReferenceIdeal
import proofs.«129829_j63720134803627_1_alg».proof.Proof.Gen.Pre_finite_inputs
import proofs.«129829_j63720134803627_1_alg».proof.Proof.Gen.ReferenceIdeal.Run
import proofs.«129829_j63720134803627_1_alg».proof.Proof.Gen.ReferenceIdeal.Read
import proofs.«129829_j63720134803627_1_alg».proof.Proof.KernelRun
import proofs.«129829_j63720134803627_1_alg».proof.Proof.RefValue
import Idealize.ShloMosaic.Adequacy
import Idealize.ShloMosaic.Init

noncomputable section

namespace Cert.Proof

open Idealize.ShloMosaic Idealize.SL.Sem

/-- The kernel's result and the reference's are one function of the three argument arrays: the sum of the kernel's
    output array and the reference's sum of its masked squared-error array are both zero plus the total squared
    masked error, and the two regularisation terms are the same operations of the feature arrays. -/
theorem result_eq (m : (ℓ : Loc Cert.KernelIdeal.nD Cert.KernelIdeal.τ Cert.KernelIdeal.sig) → Buf (Elt Ideal) ℓ) (c : Dev Cert.KernelIdeal.nD) :
    Cert.KernelIdeal.Run.result (Cert.KernelIdeal.Arr.outArr m c)
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
      = Cert.ReferenceIdeal.Read.val_main_v21 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) := by
  rw [Cert.ReferenceIdeal.RefValue.result_split]
  have hK : (Host.reduceAdd (Cert.KernelIdeal.Arr.outArr m c) (constant Cert.KernelIdeal.S_ .f32 0x00000000#32)
        Cert.KernelIdeal.Gen.reducesTo_S32x8x128_S_d0_1_2 Cert.KernelIdeal.Gen.h_S_ : FVec Ideal Cert.KernelIdeal.S_ .f32)
      = Cert.ReferenceIdeal.Read.val_main_v13 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) := by
    funext i
    rw [Cert.ReferenceIdeal.RefValue.sum_eq_total]
    simp only [Host.reduceAdd, Ideal.hostReduceAdd_def]
    rw [Ideal.hostReduceAdd_total _ (fun b => b.elim0), Cert.KernelIdeal.Arr.sum_outArr]
    exact congrArg (· + _) Ideal.ofBits_zero_f32
  unfold Cert.KernelIdeal.Run.result
  rw [hK]
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs run to the same result. -/
theorem algebraic : Cert.algebraic_KernelIdeal_ReferenceIdeal := by
  intro m ρ m' ρ' _ hagree
  refine ⟨fun c => Cert.KernelIdeal.Run.result (Cert.KernelIdeal.Arr.outArr m c)
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, (hagree c).1, (hagree c).2.1, (hagree c).2.2]
  exact (result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
